-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S100000x128 .f32) (main_arg3 : FVec F S128 .f32) (main_arg4 : FVec F S128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128 : Shape := ⟨1, ![128]⟩
abbrev S128x128 : Shape := ⟨2, ![128, 128]⟩
abbrev S10000x128 : Shape := ⟨2, ![10000, 128]⟩
abbrev S10000 : Shape := ⟨1, ![10000]⟩
abbrev S10000x1 : Shape := ⟨2, ![10000, 1]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩

abbrev nBuf : Space → Nat
  | .hbm => 41
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S100000x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S600000, .f32⟩
  | .hbm, ⟨28, _⟩ => ⟨S_, .f32⟩
  | .hbm, ⟨29, _⟩ => ⟨S100000, .f32⟩
  | .hbm, ⟨30, _⟩ => ⟨S600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S128x128, .f32⟩
  | .hbm, ⟨40, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128, .f32⟩
  | .local _ .vmem, ⟨5, _⟩ => ⟨S128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128 : Shape := ⟨1, ![128]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S100000, .f32⟩
  | .hbm, ⟨10, _⟩ => ⟨S100000x1, .f32⟩
  | .hbm, ⟨11, _⟩ => ⟨S_, .f32⟩
  | .hbm, ⟨12, _⟩ => ⟨S100000x1, .f32⟩
  | .hbm, ⟨13, _⟩ => ⟨S100000x1, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x600000, .i32⟩
  | .hbm, ⟨42, _⟩ => ⟨S600000, .i32⟩
  | .hbm, ⟨43, _⟩ => ⟨S1x600000, .i32⟩
  | .hbm, ⟨44, _⟩ => ⟨S600000, .i32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S100000x128, .f32⟩
  | .hbm, ⟨56, _⟩ => ⟨S600000x1, .i32⟩
  | .hbm, ⟨57, _⟩ => ⟨S100000x128, .f32⟩
  | .hbm, ⟨58, _⟩ => ⟨S_, .f32⟩
  | .hbm, ⟨59, _⟩ => ⟨S600000, .f32⟩
  | .hbm, ⟨60, _⟩ => ⟨S_, .f32⟩
  | .hbm, ⟨61, _⟩ => ⟨S100000, .f32⟩
  | .hbm, ⟨62, _⟩ => ⟨S600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000 : S_.BroadcastsInDim S100000 (![] : Fin 0 → Fin S100000.rank)
  transposes_S128x128_S128x128_1_0 : S128x128.Transposes [1, 0] S128x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Spec.lean ====
/-
  What the layer computes, one output element at a time, on the extended reals.

  A row `x` of 128 entries is normalised: its mean `μ = (Σ x) / 128`, its variance `σ = (Σ (x - μ)²) / 128`, and
  entry `q` becomes `max ((x q - μ) · (σ + ε)^(-1/2) · γ + β) 0 · mask`. The aggregated row `a` and the row `h` of the
  normalised features are then combined with the two transposed weight matrices and the bias:
  `Σ a k · Wl (k, q) + Σ h k · Wr (k, q) + b`. The literals 128, ε and 0 stay the words both programs print.
-/
import Idealize.ShloMosaic.PureOps.Ideal.Laws
import Idealize.ShloMosaic.Lib.ValueIdx

noncomputable section

namespace Cert.Spec

open Idealize.ShloMosaic Idealize.ShloMosaic.ValueIdx

/-- The literal 128.0. -/
abbrev c128 : EReal := Ideal.ofBits .f32 0x43000000#32
/-- The literal ε (the f32 nearest 1e-5). -/
abbrev ceps : EReal := Ideal.ofBits .f32 0x3727C5AC#32
/-- The literal 0.0. -/
abbrev czero : EReal := Ideal.ofBits .f32 0x00000000#32

/-- A row's mean: its sum over the literal 128. -/
def rowMean (xr : Fin 128 → EReal) : EReal := Ideal.div (∑ k : Fin 128, xr k) c128

/-- A row's variance: the sum of the squared deviations from the mean over the literal 128. -/
def rowVar (xr : Fin 128 → EReal) : EReal :=
  Ideal.div (∑ k : Fin 128, (xr k - rowMean xr) * (xr k - rowMean xr)) c128

/-- Entry `q` of the normalised, rectified and masked row. -/
def lnVal (xr : Fin 128 → EReal) (g b mk : EReal) (q : Fin 128) : EReal :=
  max ((xr q - rowMean xr) * Ideal.rsqrt (rowVar xr + ceps) * g + b) czero * mk

/-- Entry `q` of the combined row: the aggregated row through `Wl`, the feature row through `Wr`, then the bias. -/
def finVal (ar hr : Fin 128 → EReal) (Wl Wr : (⟨2, ![128, 128]⟩ : Shape).Idx → EReal) (b : EReal) (q : Fin 128) : EReal :=
  (∑ k : Fin 128, ar k * Wl (ix2 k q)) + (∑ k : Fin 128, hr k * Wr (ix2 k q)) + b

/-- The row and the column of an index of a [100000, 128] array. -/
abbrev row (i : (⟨2, ![100000, 128]⟩ : Shape).Idx) : Fin 100000 := ⟨(i 0).val, idx2_lt0 i⟩
abbrev col (i : (⟨2, ![100000, 128]⟩ : Shape).Idx) : Fin 128 := ⟨(i 1).val, idx2_lt1 i⟩

/-- The whole normalised feature array: element `i` from row `row i` of `X`, the parameters' entries at `col i` and the mask at `i`. -/
def hAll (X M : (⟨2, ![100000, 128]⟩ : Shape).Idx → EReal) (g b : (⟨1, ![128]⟩ : Shape).Idx → EReal) :
    (⟨2, ![100000, 128]⟩ : Shape).Idx → EReal := fun i =>
  lnVal (fun k => X (ix2 (row i) k)) (g (ix1 (col i))) (b (ix1 (col i))) (M i) (col i)

/-- The whole result array: element `i` from row `row i` of the aggregate and of the features. -/
def outAll (A H : (⟨2, ![100000, 128]⟩ : Shape).Idx → EReal) (Wl : (⟨2, ![128, 128]⟩ : Shape).Idx → EReal)
    (b : (⟨1, ![128]⟩ : Shape).Idx → EReal) (Wr : (⟨2, ![128, 128]⟩ : Shape).Idx → EReal) :
    (⟨2, ![100000, 128]⟩ : Shape).Idx → EReal := fun i =>
  finVal (fun k => A (ix2 (row i) k)) (fun k => H (ix2 (row i) k)) Wl Wr (b (ix1 (col i))) (col i)

end Cert.Spec

end
-- ==== Proof.Pay0.lean ====
/-
  The first kernel's stored value at one element of a block: row `p` of the block is normalised by its own mean and
  variance (two lane sums over the block's 128 columns), scaled and shifted by the parameters' entries of column `q`,
  rectified and masked — `Spec.lnVal` of that row.
-/
import proofs.«143952_j48747878810305_1_alg».proof.Proof.Gen.KernelIdeal.Skeleton
import proofs.«143952_j48747878810305_1_alg».proof.Proof.LibRowOps
import proofs.«143952_j48747878810305_1_alg».proof.Proof.Spec
import Idealize.ShloMosaic.Lib.ValueLayout

noncomputable section

namespace Cert.KernelIdeal.Pay

open Cert.KernelIdeal Cert.KernelIdeal.Gen Idealize.ShloMosaic Idealize.ShloMosaic.ValueIdx Cert.Spec Cert.RowOps

/-- The block's row means, kept as a column and spread over the block. -/
abbrev muV (x0 : Vec Ideal S10000x128 .f32) : FVec Ideal S10000x128 .f32 :=
  broadcastTo S10000x128 (divf (shapeCast S10000x1 (multiReduction (F := Ideal) .add [1] S10000 x0 0x00000000#32 reduces_S10000x128_S10000 (.inl rfl) rfl) shapeCasts_S10000_S10000x1)
    (broadcast S10000x1 (Scalar.ofBits (F := Ideal) .f32 0x43000000#32))) broadcasts_S10000x1_S10000x128

/-- The block's deviations from its row means. -/
abbrev devV (x0 : Vec Ideal S10000x128 .f32) : FVec Ideal S10000x128 .f32 := subf x0 (muV x0)

/-- The reciprocal square roots of the rows' variances plus ε, spread over the block. -/
abbrev rsV (x0 : Vec Ideal S10000x128 .f32) : FVec Ideal S10000x128 .f32 :=
  broadcastTo S10000x128 (rsqrt (addf (divf (shapeCast S10000x1 (multiReduction (F := Ideal) .add [1] S10000 (mulf (devV x0) (devV x0)) 0x00000000#32 reduces_S10000x128_S10000 (.inl rfl) rfl) shapeCasts_S10000_S10000x1)
    (broadcast S10000x1 (Scalar.ofBits (F := Ideal) .f32 0x43000000#32))) (broadcast S10000x1 (Scalar.ofBits (F := Ideal) .f32 0x3727C5AC#32)))) broadcasts_S10000x1_S10000x128

/-- A parameter row spread over the block. -/
abbrev parV (g : Vec Ideal S128 .f32) : FVec Ideal S10000x128 .f32 :=
  broadcastTo S10000x128 (shapeCast S1x128 g shapeCasts_S128_S1x128) broadcasts_S1x128_S10000x128

/-- The stored value is the printed tree of operations over those vectors. -/
theorem pay0_eq (x0 : Vec Ideal S10000x128 .f32) (g bt : Vec Ideal S128 .f32) (mk : Vec Ideal S10000x128 .f32) :
    k0_pay1 (F := Ideal) x0 g bt mk
      = mulf (maximumf (addf (mulf (mulf (devV x0) (rsV x0)) (parV g)) (parV bt)) (broadcast S10000x128 (Scalar.ofBits (F := Ideal) .f32 0x00000000#32))) mk := rfl

/-- A reciprocal square root at an index is that of the element. -/
theorem rsqrt_apply {s : Shape} (v : FVec Ideal s .f32) (i : s.Idx) : rsqrt v i = Ideal.rsqrt (v i) := rfl

/-- The spread mean reads, at `(p, k)`, the mean of row `p`. -/
theorem muV_apply (x0 : Vec Ideal S10000x128 .f32) (p : Fin 10000) (k : Fin 128) :
    muV x0 (ix2 p k) = rowMean (fun k => x0 (ix2 p k)) := by
  unfold muV
  rw [broadcastTo_a1_ab_apply, divf_apply, shapeCast_a_a1_apply]
  erw [laneSum_apply]
  rfl

/-- The deviation at `(p, k)`. -/
theorem devV_apply (x0 : Vec Ideal S10000x128 .f32) (p : Fin 10000) (k : Fin 128) :
    devV x0 (ix2 p k) = x0 (ix2 p k) - rowMean (fun k => x0 (ix2 p k)) := by
  unfold devV
  rw [subf_apply, muV_apply]

/-- The spread reciprocal square root reads, at `(p, k)`, that of row `p`'s variance plus ε. -/
theorem rsV_apply (x0 : Vec Ideal S10000x128 .f32) (p : Fin 10000) (k : Fin 128) :
    rsV x0 (ix2 p k) = Ideal.rsqrt (rowVar (fun k => x0 (ix2 p k)) + ceps) := by
  unfold rsV
  rw [broadcastTo_a1_ab_apply, rsqrt_apply, addf_apply, divf_apply, shapeCast_a_a1_apply]
  erw [laneSum_apply]
  simp only [mulf_apply, devV_apply]
  rfl

/-- A spread parameter row reads, at `(p, q)`, the parameter's entry `q`. -/
theorem parV_apply (g : Vec Ideal S128 .f32) (p : Fin 10000) (q : Fin 128) : parV g (ix2 p q) = g (ix1 q) := by
  unfold parV
  rw [broadcastTo_1b_ab_apply, shapeCast_a_1a_apply]

/-- THE STORED VALUE AT `(p, q)`: `lnVal` of row `p` of the block. -/
theorem pay0_apply (x0 : Vec Ideal S10000x128 .f32) (g bt : Vec Ideal S128 .f32) (mk : Vec Ideal S10000x128 .f32) (p : Fin 10000) (q : Fin 128) :
    k0_pay1 (F := Ideal) x0 g bt mk (ix2 p q) = lnVal (fun k => x0 (ix2 p k)) (g (ix1 q)) (bt (ix1 q)) (mk (ix2 p q)) q := by
  rw [pay0_eq, mulf_apply, maximumf_apply, addf_apply, mulf_apply, mulf_apply, devV_apply, rsV_apply, parV_apply, parV_apply]
  rfl

end Cert.KernelIdeal.Pay

end
-- ==== Proof.Region0.lean ====
/-
  The first region's result array in closed form, at any contents `V` the region is entered from: grid point `t`
  reads rows `10000 t … 10000 t + 9999` of the two row-blocked operands and the two whole parameter rows, and writes
  back the same rows of the result; the ten blocks tile the [100000, 128] array, so the array ends holding
  `Spec.hAll` of the operands.
-/
import proofs.«143952_j48747878810305_1_alg».proof.Proof.Gen.KernelIdeal.Frame
import proofs.«143952_j48747878810305_1_alg».proof.Proof.Pay0
import Idealize.ShloMosaic.Lib.Pipeline.Value
import Idealize.ShloMosaic.Lib.Tactic

set_option maxRecDepth 16384

noncomputable section

namespace Cert.KernelIdeal.Region0

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked windows are at block row `t`, column block 0; the two
    parameter rows at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0 :=
  (by decide +kernel : ∀ t : Fin grid0.N, _)

/-- The first operand's block at point `t` is rows `10000 t …` of its array. -/
theorem iblk0_0_apply (c : Dev nD) (t : Fin cfg0.N) (y : S10000x128.Idx) (k : S100000x128.Idx)
    (hk0 : (k 0).val = 10000 * t.val + (y 0).val) (hk1 : (k 1).val = (y 1).val) :
    (iblk0 V c 0 t : Vec Ideal S10000x128 .f32) y = (V c main_arg0 : S100000x128.Idx → EReal) k := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t 0 * 10000 + 1 * (y 0).val = (k 0).val; rw [e0, hk0]; omega
  | ⟨1, _⟩ => show win0_0.index t 1 * 128 + 1 * (y 1).val = (k 1).val; rw [e1, hk1]; omega

/-- The mask's block at point `t` is the same rows of its array. -/
theorem iblk0_1_apply (c : Dev nD) (t : Fin cfg0.N) (y : S10000x128.Idx) (k : S100000x128.Idx)
    (hk0 : (k 0).val = 10000 * t.val + (y 0).val) (hk1 : (k 1).val = (y 1).val) :
    (iblk0 V c 1 t : Vec Ideal S10000x128 .f32) y = (V c main_arg2 : S100000x128.Idx → EReal) k := by
  obtain ⟨-, -, e0, e1, -⟩ := idx0 t
  unfold iblk0
  rw [View.read_apply]
  show V c main_arg2 _ = V c main_arg2 _
  refine congrArg (V c main_arg2) (funext fun a => Fin.ext ?_)
  match a with
  | ⟨0, _⟩ => show win0_1.index t 0 * 10000 + 1 * (y 0).val = (k 0).val; rw [e0, hk0]; omega
  | ⟨1, _⟩ => show win0_1.index t 1 * 128 + 1 * (y 1).val = (k 1).val; rw [e1, hk1]; omega

/-- The scale row's block is the whole row at every point. -/
theorem iblk0_2_eq (c : Dev nD) (t : Fin cfg0.N) : (iblk0 V c 2 t : Vec Ideal S128 .f32) = (V c main_arg3 : S128.Idx → EReal) := by
  obtain ⟨-, -, -, -, e0, -⟩ := idx0 t
  funext y
  unfold iblk0
  rw [View.read_apply]
  show V c main_arg3 _ = V c main_arg3 _
  refine congrArg (V c main_arg3) (funext fun a => Fin.ext ?_)
  match a with
  | ⟨0, _⟩ => show win0_2.index t 0 * 128 + 1 * (y 0).val = (y 0).val; rw [e0]; omega

/-- The shift row's block is the whole row at every point. -/
theorem iblk0_3_eq (c : Dev nD) (t : Fin cfg0.N) : (iblk0 V c 3 t : Vec Ideal S128 .f32) = (V c main_arg4 : S128.Idx → EReal) := by
  obtain ⟨-, -, -, -, -, e0, -⟩ := idx0 t
  funext y
  unfold iblk0
  rw [View.read_apply]
  show V c main_arg4 _ = V c main_arg4 _
  refine congrArg (V c main_arg4) (funext fun a => Fin.ext ?_)
  match a with
  | ⟨0, _⟩ => show win0_3.index t 0 * 128 + 1 * (y 0).val = (y 0).val; rw [e0]; omega

/-- A block whose rows are rows `10000 n …` of the arrays stores, at local index `y`, the whole-array function at the
    index `i` of the same row and column. -/
theorem block0 (X M : Vec Ideal S100000x128 .f32) (g bt : Vec Ideal S128 .f32) (x0 mk : Vec Ideal S10000x128 .f32) (g0 b0 : Vec Ideal S128 .f32) (n : Nat)
    (hx : ∀ (y : S10000x128.Idx) (k : S100000x128.Idx), (k 0).val = 10000 * n + (y 0).val → (k 1).val = (y 1).val → x0 y = X k)
    (hm : ∀ (y : S10000x128.Idx) (k : S100000x128.Idx), (k 0).val = 10000 * n + (y 0).val → (k 1).val = (y 1).val → mk y = M k)
    (hg : g0 = g) (hb : b0 = bt)
    (y : S10000x128.Idx) (i : S100000x128.Idx) (hi0 : (i 0).val = 10000 * n + (y 0).val) (hi1 : (i 1).val = (y 1).val) :
    k0_pay1 (F := Ideal) x0 g0 b0 mk y = hAll X M g bt i := by
  subst hg hb
  obtain ⟨p, q, rfl⟩ : ∃ (p : Fin 10000) (q : Fin 128), y = ix2 p q := ⟨y 0, y 1, eq_ix2 y⟩
  rw [pay0_apply]
  unfold hAll
  have hq : col i = q := Fin.ext hi1
  rw [hq, show (fun k => x0 (ix2 p k)) = (fun k => X (ix2 (row i) k)) from funext fun k => hx _ _ hi0 rfl, hm _ i hi0 hi1]

/-- WHAT POINT `t` WRITES BACK is block `t` of `hAll` of the operands as the region finds them. -/
theorem flushed0 (c : Dev nD) (t : Fin cfg0.N) :
    (dat0 V c).flushed 4 t = ((cfg0.win 4).blk t).view.read (Elt Ideal) (hAll (V c main_arg0) (V c main_arg2) (V c main_arg3) (V c main_arg4)) := by
  show (cfg0.win 4).cut (grid0.coords t) ((dat0 V c).after 4 t) = _
  rw [after0_4]
  unfold out0_4
  rw [View.canon_unit_zero hz2]
  simp only [View.ld_unit_zero (S := S10000x128) hz2, View.ld_unit_zero (S := S128) hz1]
  obtain ⟨-, -, -, -, -, -, e0, e1⟩ := idx0 t
  funext j
  refine block0 (V c main_arg0) (V c main_arg2) (V c main_arg3) (V c main_arg4) (iblk0 V c 0 t) (iblk0 V c 1 t) (iblk0 V c 2 t) (iblk0 V c 3 t) t.val
    (fun y k h0 h1 => iblk0_0_apply V c t y k h0 h1) (fun y k h0 h1 => iblk0_1_apply V c t y k h0 h1) (iblk0_2_eq V c t) (iblk0_3_eq V c t)
    j (((cfg0.win 4).blk t).view.emb j) ?_ ?_
  · show win0_4.index t (0 : Fin 2) * 10000 + 1 * (j 0).val = 10000 * t.val + (j 0).val; rw [e0]; omega
  · show win0_4.index t (1 : Fin 2) * 128 + 1 * (j 1).val = (j 1).val; rw [e1]; omega

/-- An index of the array is in point `t`'s block iff each coordinate is in the block's range on its axis. -/
theorem mem_blk0 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v0).slice (win0_4.rect t)).set ↔ _
  rw [View.set_slice_whole, Rect.mem_set_unit]
  exact Iff.rfl

/-- Every index of the array is in the block of the point `row / 10000`, which writes back. -/
theorem cover0 (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  obtain ⟨t, ht⟩ : ∃ t : Fin cfg0.N, t.val = (i 0).val / 10000 :=
    ⟨⟨(i 0).val / 10000, by rw [show cfg0.N = 10 from N_0]; omega⟩, rfl⟩
  refine ⟨t, flush0_4 t, ?_⟩
  obtain ⟨-, -, -, -, -, -, e0, e1⟩ := idx0 t
  rw [mem_blk0]
  intro a
  match a with
  | ⟨0, _⟩ => show win0_4.index t (0 : Fin 2) * 10000 ≤ (i 0).val ∧ (i 0).val < win0_4.index t (0 : Fin 2) * 10000 + 10000; rw [e0, ht]; omega
  | ⟨1, _⟩ => show win0_4.index t (1 : Fin 2) * 128 ≤ (i 1).val ∧ (i 1).val < win0_4.index t (1 : Fin 2) * 128 + 128; rw [e1]; omega

/-- THE RESULT ARRAY of the first region: `hAll` of the operands as the region finds them. -/
theorem final0 (c : Dev nD) :
    (dat0 V c).arrAt 4 cfg0.N = hAll (V c main_arg0) (V c main_arg2) (V c main_arg3) (V c main_arg4) :=
  (dat0 V c).arrAt_eq_of_cover 4 _ (fun t _ => flushed0 V c t) cover0

end Cert.KernelIdeal.Region0

end
-- ==== Proof.Pay1.lean ====
/-
  The second kernel's stored value at one element of a block: row `p` of the aggregate block through the first
  weight block plus row `p` of the feature block through the second (two matrix products into zero; the changes of
  float format on the way in are the identity on the extended reals), plus the bias entry of column `q` —
  `Spec.finVal` of those two rows.
-/
import proofs.«143952_j48747878810305_1_alg».proof.Proof.Gen.KernelIdeal.Skeleton
import proofs.«143952_j48747878810305_1_alg».proof.Proof.LibRowOps
import proofs.«143952_j48747878810305_1_alg».proof.Proof.Spec
import Idealize.ShloMosaic.Lib.ValueLayout

noncomputable section

namespace Cert.KernelIdeal.Pay

open Cert.KernelIdeal Cert.KernelIdeal.Gen Idealize.ShloMosaic Idealize.ShloMosaic.ValueIdx Cert.Spec Cert.RowOps

/-- One of the kernel's two matrix products at `(p, q)`: the sum over `k` of the row's entry times the weight's. -/
theorem prod_apply (a : Vec Ideal S10000x128 .f32) (w : Vec Ideal S128x128 .f32) (p : Fin 10000) (q : Fin 128) :
    matmul (F := Ideal) dot_S10000x128_S128x128_S10000x128_1_0_0_1_n_n none
        (truncf .bf16 (shapeCast S10000x128 a shapeCasts_S10000x128_S10000x128) bitsLt_bf16_f32)
        (truncf .bf16 (shapeCast S128x128 w shapeCasts_S128x128_S128x128) bitsLt_bf16_f32)
        (constant S10000x128 .f32 0x00000000#32) (ix2 p q)
      = ∑ k : Fin 128, a (ix2 p k) * w (ix2 k q) := by
  unfold dot_S10000x128_S128x128_S10000x128_1_0_0_1_n_n
  refine (Cert.RowOps.matmul_apply _ none _ _ p q).trans ?_
  simp only [truncf_apply, shapeCast_self]

/-- THE STORED VALUE AT `(p, q)`: `finVal` of row `p` of the two blocks. -/
theorem pay1_apply (a h : Vec Ideal S10000x128 .f32) (wl wr : Vec Ideal S128x128 .f32) (b : Vec Ideal S128 .f32) (p : Fin 10000) (q : Fin 128) :
    k1_pay1 (F := Ideal) a h wl wr b (ix2 p q) = finVal (fun k => a (ix2 p k)) (fun k => h (ix2 p k)) wl wr (b (ix1 q)) q := by
  unfold k1_pay1
  rw [addf_apply, addf_apply, prod_apply, prod_apply, broadcastTo_1b_ab_apply, shapeCast_a_1a_apply]
  rfl

end Cert.KernelIdeal.Pay

end
-- ==== Proof.Region1.lean ====
/-
  The second region's result array in closed form, at any contents `V` the region is entered from: grid point `t`
  reads rows `10000 t … 10000 t + 9999` of the aggregate and of the features, the two whole weight matrices and the
  whole bias row, and writes back the same rows of the result; the ten blocks tile the [100000, 128] array, so the
  array ends holding `Spec.outAll` of the operands.
-/
import proofs.«143952_j48747878810305_1_alg».proof.Proof.Gen.KernelIdeal.Frame
import proofs.«143952_j48747878810305_1_alg».proof.Proof.Pay1
import Idealize.ShloMosaic.Lib.Pipeline.Value
import Idealize.ShloMosaic.Lib.Tactic

set_option maxRecDepth 16384

noncomputable section

namespace Cert.KernelIdeal.Region1

open Cert.KernelIdeal Cert.KernelIdeal.Gen Cert.KernelIdeal.Pay Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked windows are at block row `t`, column block 0; the two
    weight matrices and the bias row at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point `t` is rows `10000 t …` of its array. -/
theorem iblk1_0_apply (c : Dev nD) (t : Fin cfg1.N) (y : S10000x128.Idx) (k : S100000x128.Idx)
    (hk0 : (k 0).val = 10000 * t.val + (y 0).val) (hk1 : (k 1).val = (y 1).val) :
    (iblk1 V c 0 t : Vec Ideal S10000x128 .f32) y = (V c main_v23 : S100000x128.Idx → EReal) k := by
  obtain ⟨e0, e1, -⟩ := idx1 t
  unfold iblk1
  rw [View.read_apply]
  show V c main_v23 _ = V c main_v23 _
  refine congrArg (V c main_v23) (funext fun a => Fin.ext ?_)
  match a with
  | ⟨0, _⟩ => show win1_0.index t 0 * 10000 + 1 * (y 0).val = (k 0).val; rw [e0, hk0]; omega
  | ⟨1, _⟩ => show win1_0.index t 1 * 128 + 1 * (y 1).val = (k 1).val; rw [e1, hk1]; omega

/-- The features' block at point `t` is the same rows of their array. -/
theorem iblk1_1_apply (c : Dev nD) (t : Fin cfg1.N) (y : S10000x128.Idx) (k : S100000x128.Idx)
    (hk0 : (k 0).val = 10000 * t.val + (y 0).val) (hk1 : (k 1).val = (y 1).val) :
    (iblk1 V c 1 t : Vec Ideal S10000x128 .f32) y = (V c main_v0 : S100000x128.Idx → EReal) k := by
  obtain ⟨-, -, e0, e1, -⟩ := idx1 t
  unfold iblk1
  rw [View.read_apply]
  show V c main_v0 _ = V c main_v0 _
  refine congrArg (V c main_v0) (funext fun a => Fin.ext ?_)
  match a with
  | ⟨0, _⟩ => show win1_1.index t 0 * 10000 + 1 * (y 0).val = (k 0).val; rw [e0, hk0]; omega
  | ⟨1, _⟩ => show win1_1.index t 1 * 128 + 1 * (y 1).val = (k 1).val; rw [e1, hk1]; omega

/-- The first weight matrix's block is the whole matrix at every point. -/
theorem iblk1_2_eq (c : Dev nD) (t : Fin cfg1.N) : (iblk1 V c 2 t : Vec Ideal S128x128 .f32) = (V c main_v24 : S128x128.Idx → EReal) := by
  obtain ⟨-, -, -, -, e0, e1, -⟩ := idx1 t
  funext y
  unfold iblk1
  rw [View.read_apply]
  show V c main_v24 _ = V c main_v24 _
  refine congrArg (V c main_v24) (funext fun a => Fin.ext ?_)
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias row's block is the whole row at every point. -/
theorem iblk1_3_eq (c : Dev nD) (t : Fin cfg1.N) : (iblk1 V c 3 t : Vec Ideal S128 .f32) = (V c main_arg6 : S128.Idx → EReal) := by
  obtain ⟨-, -, -, -, -, -, e0, -⟩ := idx1 t
  funext y
  unfold iblk1
  rw [View.read_apply]
  show V c main_arg6 _ = V c main_arg6 _
  refine congrArg (V c main_arg6) (funext fun a => Fin.ext ?_)
  match a with
  | ⟨0, _⟩ => show win1_3.index t 0 * 128 + 1 * (y 0).val = (y 0).val; rw [e0]; omega

/-- The second weight matrix's block is the whole matrix at every point. -/
theorem iblk1_4_eq (c : Dev nD) (t : Fin cfg1.N) : (iblk1 V c 4 t : Vec Ideal S128x128 .f32) = (V c main_v25 : S128x128.Idx → EReal) := by
  obtain ⟨-, -, -, -, -, -, -, e0, e1, -⟩ := idx1 t
  funext y
  unfold iblk1
  rw [View.read_apply]
  show V c main_v25 _ = V c main_v25 _
  refine congrArg (V c main_v25) (funext fun a => Fin.ext ?_)
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- A block whose rows are rows `10000 n …` of the arrays stores, at local index `y`, the whole-array function at the
    index `i` of the same row and column. -/
theorem block1 (A H : Vec Ideal S100000x128 .f32) (wl wr : Vec Ideal S128x128 .f32) (b : Vec Ideal S128 .f32)
    (a0 h0 : Vec Ideal S10000x128 .f32) (wl0 wr0 : Vec Ideal S128x128 .f32) (b0 : Vec Ideal S128 .f32) (n : Nat)
    (ha : ∀ (y : S10000x128.Idx) (k : S100000x128.Idx), (k 0).val = 10000 * n + (y 0).val → (k 1).val = (y 1).val → a0 y = A k)
    (hh : ∀ (y : S10000x128.Idx) (k : S100000x128.Idx), (k 0).val = 10000 * n + (y 0).val → (k 1).val = (y 1).val → h0 y = H k)
    (hwl : wl0 = wl) (hwr : wr0 = wr) (hb : b0 = b)
    (y : S10000x128.Idx) (i : S100000x128.Idx) (hi0 : (i 0).val = 10000 * n + (y 0).val) (hi1 : (i 1).val = (y 1).val) :
    k1_pay1 (F := Ideal) a0 h0 wl0 wr0 b0 y = outAll A H wl b wr i := by
  subst hwl hwr hb
  obtain ⟨p, q, rfl⟩ : ∃ (p : Fin 10000) (q : Fin 128), y = ix2 p q := ⟨y 0, y 1, eq_ix2 y⟩
  rw [pay1_apply]
  unfold outAll
  have hq : col i = q := Fin.ext hi1
  rw [hq, show (fun k => a0 (ix2 p k)) = (fun k => A (ix2 (row i) k)) from funext fun k => ha _ _ hi0 rfl,
    show (fun k => h0 (ix2 p k)) = (fun k => H (ix2 (row i) k)) from funext fun k => hh _ _ hi0 rfl]

/-- WHAT POINT `t` WRITES BACK is block `t` of `outAll` of the operands as the region finds them. -/
theorem flushed1 (c : Dev nD) (t : Fin cfg1.N) :
    (dat1 V c).flushed 5 t = ((cfg1.win 5).blk t).view.read (Elt Ideal) (outAll (V c main_v23) (V c main_v0) (V c main_v24) (V c main_arg6) (V c main_v25)) := by
  show (cfg1.win 5).cut (grid1.coords t) ((dat1 V c).after 5 t) = _
  rw [after1_5]
  unfold out1_5
  rw [View.canon_unit_zero hz2]
  simp only [View.ld_unit_zero (S := S10000x128) hz2, View.ld_unit_zero (S := S128x128) hz2, View.ld_unit_zero (S := S128) hz1]
  obtain ⟨-, -, -, -, -, -, -, -, -, e0, e1⟩ := idx1 t
  funext j
  refine block1 (V c main_v23) (V c main_v0) (V c main_v24) (V c main_v25) (V c main_arg6)
    (iblk1 V c 0 t) (iblk1 V c 1 t) (iblk1 V c 2 t) (iblk1 V c 4 t) (iblk1 V c 3 t) t.val
    (fun y k h0 h1 => iblk1_0_apply V c t y k h0 h1) (fun y k h0 h1 => iblk1_1_apply V c t y k h0 h1)
    (iblk1_2_eq V c t) (iblk1_4_eq V c t) (iblk1_3_eq V c t)
    j (((cfg1.win 5).blk t).view.emb j) ?_ ?_
  · show win1_5.index t (0 : Fin 2) * 10000 + 1 * (j 0).val = 10000 * t.val + (j 0).val; rw [e0]; omega
  · show win1_5.index t (1 : Fin 2) * 128 + 1 * (j 1).val = (j 1).val; rw [e1]; omega

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v26).slice (win1_5.rect t)).set ↔ _
  rw [View.set_slice_whole, Rect.mem_set_unit]
  exact Iff.rfl

/-- Every index of the array is in the block of the point `row / 10000`, which writes back. -/
theorem cover1 (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 10000 :=
    ⟨⟨(i 0).val / 10000, by rw [show cfg1.N = 10 from N_1]; omega⟩, rfl⟩
  refine ⟨t, flush1_5 t, ?_⟩
  obtain ⟨-, -, -, -, -, -, -, -, -, e0, e1⟩ := idx1 t
  rw [mem_blk1]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 128 ≤ (i 1).val ∧ (i 1).val < win1_5.index t (1 : Fin 2) * 128 + 128; rw [e1]; omega

/-- THE RESULT ARRAY of the second region: `outAll` of the operands as the region finds them. -/
theorem final1 (c : Dev nD) :
    (dat1 V c).arrAt 5 cfg1.N = outAll (V c main_v23) (V c main_v0) (V c main_v24) (V c main_arg6) (V c main_v25) :=
  (dat1 V c).arrAt_eq_of_cover 5 _ (fun t _ => flushed1 V c t) cover1

end Cert.KernelIdeal.Region1

end
-- ==== Proof.KernelValue.lean ====
/-
  The kernel program's result as one function of the argument arrays. Region 0 leaves the normalised features
  `Spec.hAll` of the arguments in its result array; the host operations between the regions gather the features' rows at
  the edges' sources, add them up at the edges' destinations and divide by the destinations' counts (`aggK`), and
  transpose the two weight matrices; region 1 then leaves `Spec.outAll` of the aggregate, the features, the transposed
  weights and the bias in the program's result array.
-/
import proofs.«143952_j48747878810305_1_alg».proof.Proof.KernelRun
import proofs.«143952_j48747878810305_1_alg».proof.Proof.Region0
import proofs.«143952_j48747878810305_1_alg».proof.Proof.Region1
import Idealize.ShloMosaic.Lib.StableHlo.Run

set_option maxRecDepth 16384

noncomputable section

namespace Cert.KernelIdeal.Out

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The edges' sources (row 0 of the edge array) and destinations (row 1), as flat index vectors. -/
abbrev srcK (E : IVec S2x600000 32) : IVec S600000 32 :=
  shapeCast S600000 (extractStridedSlice S1x600000 ![0, 0] E slices_S2x600000_S1x600000_0_0) shapeCasts_S1x600000_S600000
abbrev dstK (E : IVec S2x600000 32) : IVec S600000 32 :=
  shapeCast S600000 (extractStridedSlice S1x600000 ![1, 0] E slices_S2x600000_S1x600000_1_0) shapeCasts_S1x600000_S600000

/-- The aggregation between the two kernels: the features' rows gathered at the sources (a negative source counted
    from the end), added up at the destinations, and divided by each destination's count of edges, at least 1. -/
def aggK (H : FVec Ideal S100000x128 .f32) (E : IVec S2x600000 32) : FVec Ideal S100000x128 .f32 :=
  Host.divf (F := Ideal) (φ := .f32)
    (Host.scatterAdd (F := Ideal) (φ := .f32) scatter_S100000x128_S600000x1_S600000x128_1_0_0_1
      (broadcastInDim S100000x128 ![] bcast_S_S100000x128 (constant (F := Ideal) S_ .f32 0x00000000#32))
      (broadcastInDim S600000x1 ![0] bcast_S600000_S600000x1_0 (dstK E))
      (Host.gather gather_S100000x128_S600000x1_S600000x128_1_0_n_n_0_1_1128 H
        (broadcastInDim S600000x1 ![0] bcast_S600000_S600000x1_0
          (select (cmpi .slt (srcK E) (broadcastInDim S600000 ![] bcast_S_S600000 (constantI S_ 32 0#32)))
            (addi (srcK E) (broadcastInDim S600000 ![] bcast_S_S600000 (constantI S_ 32 100000#32))) (srcK E)))))
    (broadcastInDim S100000x128 ![0, 1] bcast_S100000x1_S100000x128_0_1
      (broadcastInDim S100000x1 ![0] bcast_S100000_S100000x1_0
        (maximumf (F := Ideal) (φ := .f32)
          (Host.scatterAdd (F := Ideal) (φ := .f32) scatter_S100000_S600000x1_S600000_n_0_0_1
            (broadcastInDim S100000 ![] bcast_S_S100000 (constant (F := Ideal) S_ .f32 0x00000000#32))
            (broadcastInDim S600000x1 ![0] bcast_S600000_S600000x1_0 (dstK E))
            (broadcastInDim S600000 ![] bcast_S_S600000 (constant (F := Ideal) S_ .f32 0x3F800000#32)))
          (broadcastInDim S100000 ![] bcast_S_S100000 (constant (F := Ideal) S_ .f32 0x3F800000#32)))))

/-- A weight matrix transposed, as the host does it before the second region. -/
abbrev trK (W : FVec Ideal S128x128 .f32) : FVec Ideal S128x128 .f32 :=
  transpose S128x128 [1, 0] W transposes_S128x128_S128x128_1_0

/-! ## After the first region -/

/-- The first region's result array holds the normalised features of the arguments. -/
theorem W1_v0 (c : Dev nD) :
    W1 m ρ c (Proc.devRef .tc main_v0) = hAll (m ((c : Thread nD τ).loc main_arg0)) (m ((c : Thread nD τ).loc main_arg2))
      (m ((c : Thread nD τ).loc main_arg3)) (m ((c : Thread nD τ).loc main_arg4)) :=
  (W1_arr m ρ c 4).trans (Region0.final0 (V0 m ρ) c)

/-- The arguments the host operations and the second region read are still as launched. -/
theorem W1_arg1 (c : Dev nD) : W1 m ρ c (Proc.devRef .tc main_arg1) = m ((c : Thread nD τ).loc main_arg1) :=
  (W1_of_ne m ρ c main_arg1 (by decide)).trans rfl
theorem W1_arg5 (c : Dev nD) : W1 m ρ c (Proc.devRef .tc main_arg5) = m ((c : Thread nD τ).loc main_arg5) :=
  (W1_of_ne m ρ c main_arg5 (by decide)).trans rfl
theorem W1_arg6 (c : Dev nD) : W1 m ρ c (Proc.devRef .tc main_arg6) = m ((c : Thread nD τ).loc main_arg6) :=
  (W1_of_ne m ρ c main_arg6 (by decide)).trans rfl
theorem W1_arg7 (c : Dev nD) : W1 m ρ c (Proc.devRef .tc main_arg7) = m ((c : Thread nD τ).loc main_arg7) :=
  (W1_of_ne m ρ c main_arg7 (by decide)).trans rfl

/-! ## At the second region's entry -/

/-- The features are untouched by the host operations. -/
theorem V2_v0 (c : Dev nD) : V2 m ρ c main_v0 = hAll (m ((c : Thread nD τ).loc main_arg0)) (m ((c : Thread nD τ).loc main_arg2))
      (m ((c : Thread nD τ).loc main_arg3)) (m ((c : Thread nD τ).loc main_arg4)) := by
  refine Eq.trans ?_ (W1_v0 m ρ c)
  show StableHlo.after hostOps1 (W1 m ρ c) (Proc.devRef .tc main_v0) = _
  after_results

/-- So is the bias. -/
theorem V2_arg6 (c : Dev nD) : V2 m ρ c main_arg6 = m ((c : Thread nD τ).loc main_arg6) := by
  refine Eq.trans ?_ (W1_arg6 m ρ c)
  show StableHlo.after hostOps1 (W1 m ρ c) (Proc.devRef .tc main_arg6) = _
  after_results

/-- The two transposed weight matrices. -/
theorem V2_v24 (c : Dev nD) : V2 m ρ c main_v24 = trK (m ((c : Thread nD τ).loc main_arg5)) := by
  refine Eq.trans ?_ (congrArg trK (W1_arg5 m ρ c))
  show StableHlo.after hostOps1 (W1 m ρ c) (Proc.devRef .tc main_v24) = _
  after_results
theorem V2_v25 (c : Dev nD) : V2 m ρ c main_v25 = trK (m ((c : Thread nD τ).loc main_arg7)) := by
  refine Eq.trans ?_ (congrArg trK (W1_arg7 m ρ c))
  show StableHlo.after hostOps1 (W1 m ρ c) (Proc.devRef .tc main_v25) = _
  after_results

set_option maxHeartbeats 8000000 in
/-- The aggregate: the host operations' composed term over the features and the edge array. -/
theorem V2_v23 (c : Dev nD) : V2 m ρ c main_v23 = aggK (hAll (m ((c : Thread nD τ).loc main_arg0)) (m ((c : Thread nD τ).loc main_arg2))
      (m ((c : Thread nD τ).loc main_arg3)) (m ((c : Thread nD τ).loc main_arg4))) (m ((c : Thread nD τ).loc main_arg1)) := by
  rw [← W1_v0 m ρ c, ← W1_arg1 m ρ c]
  show StableHlo.after hostOps1 (W1 m ρ c) (Proc.devRef .tc main_v23) = _
  after_results_simp
  rfl

/-! ## The result -/

/-- What the program's result array holds after the run, as a function of the argument arrays. -/
def kout (c : Dev nD) : FVec Ideal S100000x128 .f32 :=
  outAll (aggK (hAll (m ((c : Thread nD τ).loc main_arg0)) (m ((c : Thread nD τ).loc main_arg2)) (m ((c : Thread nD τ).loc main_arg3)) (m ((c : Thread nD τ).loc main_arg4)))
      (m ((c : Thread nD τ).loc main_arg1)))
    (hAll (m ((c : Thread nD τ).loc main_arg0)) (m ((c : Thread nD τ).loc main_arg2)) (m ((c : Thread nD τ).loc main_arg3)) (m ((c : Thread nD τ).loc main_arg4)))
    (trK (m ((c : Thread nD τ).loc main_arg5))) (m ((c : Thread nD τ).loc main_arg6)) (trK (m ((c : Thread nD τ).loc main_arg7)))

/-- The last boundary's contents at the result array. -/
theorem W3_v26 (c : Dev nD) : W3 m ρ c (Proc.devRef .tc main_v26) = kout m c := by
  refine (W3_arr m ρ c 5).trans ((Region1.final1 (V2 m ρ) c).trans ?_)
  rw [V2_v23, V2_v0, V2_v24, V2_arg6, V2_v25]
  rfl

/-- THE KERNEL PROGRAM'S RUN: every weakly fair execution terminates with the result array at `kout` of the arguments and
    the arguments unchanged. -/
theorem run_value : θ_run defs (onTc (τ := τ) (main (F := Ideal))) ⟨m, fun _ => 0, ρ⟩ (fun r => ∀ c : Dev nD,
      r.2.mem ((c.tc : Thread nD τ).loc main_v26) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W3_v26 m ρ c), (h c).2⟩) (run_out m ρ)

end Cert.KernelIdeal.Out

end
-- ==== Proof.RefValue.lean ====
/-
  The reference, stage by stage, is the same two whole-array functions: its normalised features are `Spec.hAll` of the
  arguments (the host's row sums start from the literal 0, which adds nothing), and its result is `Spec.outAll` of the
  aggregate, the features, the two transposed weights and the bias (the reference adds the bias before the second
  product; addition of extended reals is commutative and associative, so the order is immaterial).
-/
import proofs.«143952_j48747878810305_1_alg».proof.Proof.Gen.ReferenceIdeal.Read
import proofs.«143952_j48747878810305_1_alg».proof.Proof.Spec

set_option maxRecDepth 16384

noncomputable section

namespace Cert.ReferenceIdeal.RefValue

open Cert.ReferenceIdeal Cert.ReferenceIdeal.Read Cert.Spec
open Idealize.ShloMosaic Idealize.ShloMosaic.ValueIdx

/-- The index maps the row sums read through: entry `k` of the row of `i`. -/
theorem idx_sum0 (i : S100000x128.Idx) (k : Fin 128) : idx_main_v0 (idx_main_v1 (idx_main_v4 i)) k = ix2 (row i) k :=
  funext fun a => Fin.ext (by match a with | ⟨0, _⟩ => rfl | ⟨1, _⟩ => rfl)
theorem idx_sum7 (i : S100000x128.Idx) (k : Fin 128) : idx_main_v7 (idx_main_v8 (idx_main_v16 i)) k = ix2 (row i) k :=
  funext fun a => Fin.ext (by match a with | ⟨0, _⟩ => rfl | ⟨1, _⟩ => rfl)
/-- The mean column is read at the row of `i`, whichever column `i` is in. -/
theorem idx_col4 (i : S100000x128.Idx) (k : Fin 128) : idx_main_v4 (ix2 (row i) k) = idx_main_v4 i :=
  funext fun a => Fin.ext (by match a with | ⟨0, _⟩ => rfl | ⟨1, _⟩ => rfl)
theorem idx_col11 (i : S100000x128.Idx) : idx_main_v11 i = idx_main_v4 i :=
  funext fun a => Fin.ext (by match a with | ⟨0, _⟩ => rfl | ⟨1, _⟩ => rfl)
/-- A parameter row is read at the column of `i`. -/
theorem idx_par19 (i : S100000x128.Idx) : idx_main_v18 (idx_main_v19 i) = ix1 (col i) :=
  funext fun a => Fin.ext (by match a with | ⟨0, _⟩ => rfl)
theorem idx_par22 (i : S100000x128.Idx) : idx_main_v21 (idx_main_v22 i) = ix1 (col i) :=
  funext fun a => Fin.ext (by match a with | ⟨0, _⟩ => rfl)

/-- The reference's mean column at the row of `i` is that row's mean. -/
theorem mean_ref (x0 : (⟨S100000x128, .f32⟩ : BufTy).Contents (Elt Ideal)) (i : S100000x128.Idx) :
    val_main_v3 (F := Ideal) x0 (idx_main_v4 i) = rowMean (fun k => x0 (ix2 (row i) k)) := by
  rw [val_main_v3_apply, val_main_v1_apply, val_main_v0_apply, val_main_v2_apply]
  simp only [val_main_cst_apply, val_main_cst_0_apply, Ideal.hostDivf_def, Ideal.ofBits_def, Ideal.ofBits_zero_f32, zero_add, idx_sum0]
  rfl

/-- The reference's deviation at entry `k` of the row of `i`. -/
theorem dev_ref (x0 : (⟨S100000x128, .f32⟩ : BufTy).Contents (Elt Ideal)) (i : S100000x128.Idx) (k : Fin 128) :
    val_main_v5 (F := Ideal) x0 (ix2 (row i) k) = x0 (ix2 (row i) k) - rowMean (fun k => x0 (ix2 (row i) k)) := by
  rw [val_main_v5_apply, val_main_v4_apply, idx_col4, mean_ref]
  rfl

/-- The reference's variance column at the row of `i` is that row's variance. -/
theorem var_ref (x0 : (⟨S100000x128, .f32⟩ : BufTy).Contents (Elt Ideal)) (i : S100000x128.Idx) :
    val_main_v10 (F := Ideal) x0 (idx_main_v16 i) = rowVar (fun k => x0 (ix2 (row i) k)) := by
  rw [val_main_v10_apply, val_main_v8_apply, val_main_v7_apply, val_main_v9_apply]
  simp only [val_main_cst_1_apply, val_main_cst_2_apply, Ideal.hostDivf_def, Ideal.ofBits_def, Ideal.ofBits_zero_f32, zero_add, idx_sum7,
    val_main_v6_apply, dev_ref, Ideal.mulf_def]
  rfl

/-- THE REFERENCE'S FEATURES are `hAll` of the arguments. -/
theorem h_eq (x0 x2 : (⟨S100000x128, .f32⟩ : BufTy).Contents (Elt Ideal)) (x3 x4 : (⟨S128, .f32⟩ : BufTy).Contents (Elt Ideal)) :
    val_main_v25 (F := Ideal) x0 x2 x3 x4 = hAll x0 x2 x3 x4 := by
  funext i
  rw [val_main_v25_apply, val_main_v24_apply, val_main_v23_apply, val_main_v20_apply, val_main_v17_apply, val_main_v12_apply,
    val_main_v11_apply, idx_col11, mean_ref, val_main_v16_apply, val_main_v15_apply, val_main_v14_apply, var_ref, val_main_v13_apply,
    val_main_v19_apply, val_main_v18_apply, idx_par19, val_main_v22_apply, val_main_v21_apply, idx_par22, val_main_call0_v0_apply]
  simp only [val_main_cst_3_apply, val_main_call0_cst_apply, Ideal.ofBits_def, Ideal.mulf_def, Ideal.addf_def, Ideal.subf_def,
    Ideal.maximumf_def, Ideal.hostUnary_rsqrt_def]
  have hi : x0 i = x0 (ix2 (row i) (col i)) := congrArg x0 (eq_ix2 i)
  unfold hAll lnVal
  dsimp only
  rw [← hi]

/-- The index maps the two products read through: entry `k` of the row of `i`, and row `k` of the column of `i`. -/
theorem idx_l50 (i : S100000x128.Idx) (k : Fin 128) : lidx_main_v50 i k = ix2 (row i) k :=
  funext fun a => Fin.ext (by match a with | ⟨0, _⟩ => rfl | ⟨1, _⟩ => rfl)
theorem idx_r50 (i : S100000x128.Idx) (k : Fin 128) : ridx_main_v50 i k = ix2 k (col i) :=
  funext fun a => Fin.ext (by match a with | ⟨0, _⟩ => rfl | ⟨1, _⟩ => rfl)
theorem idx_l55 (i : S100000x128.Idx) (k : Fin 128) : lidx_main_v55 i k = ix2 (row i) k :=
  funext fun a => Fin.ext (by match a with | ⟨0, _⟩ => rfl | ⟨1, _⟩ => rfl)
theorem idx_r55 (i : S100000x128.Idx) (k : Fin 128) : ridx_main_v55 i k = ix2 k (col i) :=
  funext fun a => Fin.ext (by match a with | ⟨0, _⟩ => rfl | ⟨1, _⟩ => rfl)
theorem idx_b52 (i : S100000x128.Idx) : idx_main_v51 (idx_main_v52 i) = ix1 (col i) :=
  funext fun a => Fin.ext (by match a with | ⟨0, _⟩ => rfl)

/-- THE REFERENCE'S RESULT is `outAll` of its aggregate, its features, the transposed weights and the bias. -/
theorem out_eq (x0 : (⟨S100000x128, .f32⟩ : BufTy).Contents (Elt Ideal)) (x1 : (⟨S2x600000, .i32⟩ : BufTy).Contents (Elt Ideal))
    (x2 : (⟨S100000x128, .f32⟩ : BufTy).Contents (Elt Ideal)) (x3 x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v56 (F := Ideal) x0 x1 x2 x3 x4 x5 x6 x7
      = outAll (val_main_v48 (F := Ideal) x0 x1 x2 x3 x4) (val_main_v25 (F := Ideal) x0 x2 x3 x4) (val_main_v49 (F := Ideal) x5) x6 (val_main_v54 (F := Ideal) x7) := by
  funext i
  rw [val_main_v56_apply, val_main_v53_apply, val_main_v50_apply, val_main_v55_apply, val_main_v52_apply, val_main_v51_apply]
  simp only [idx_l50, idx_r50, idx_l55, idx_r55, idx_b52, Ideal.addf_def]
  unfold outAll finVal
  exact add_right_comm _ _ _

/-- The aggregation between the two kernels, as the reference spells it: gather the features' rows at the source
    indices, add them up at the destination indices, divide by the destinations' counts (at least 1). -/
def mid (H : FVec Ideal S100000x128 .f32) (x1 : (⟨S2x600000, .i32⟩ : BufTy).Contents (Elt Ideal)) : FVec Ideal S100000x128 .f32 :=
  Host.divf (F := Ideal) (φ := .f32) (Host.scatterAdd (F := Ideal) (φ := .f32) scatter_S100000x128_S600000x1_S600000x128_1_0_0_1 (val_main_v37 (F := Ideal)) (val_main_v38 (F := Ideal) x1)
    (Host.gather gather_S100000x128_S600000x1_S600000x128_1_0_n_n_0_1_1128 H (val_main_v35 (F := Ideal) x1))) (val_main_v47 (F := Ideal) x1)

/-- The reference's aggregate is `mid` of its features. -/
theorem agg_eq (x0 : (⟨S100000x128, .f32⟩ : BufTy).Contents (Elt Ideal)) (x1 : (⟨S2x600000, .i32⟩ : BufTy).Contents (Elt Ideal))
    (x2 : (⟨S100000x128, .f32⟩ : BufTy).Contents (Elt Ideal)) (x3 x4 : (⟨S128, .f32⟩ : BufTy).Contents (Elt Ideal)) :
    val_main_v48 (F := Ideal) x0 x1 x2 x3 x4 = mid (val_main_v25 (F := Ideal) x0 x2 x3 x4) x1 := by
  unfold val_main_v48 val_main_v39 val_main_v36 mid
  rfl

end Cert.ReferenceIdeal.RefValue

end
-- ==== Proof.Bridge.lean ====
/-
  The two programs meet: the reference's result term, stage by stage, is `Spec.outAll` of its aggregate, its features,
  the transposed weights and the bias; its features are `Spec.hAll` of the arguments, as the first kernel's are; its
  aggregation and its transposes are the very operations the kernel program's host part applies (the same gather,
  scatter-adds, division and transposes over the same shapes), so on arguments that agree the two results are one array.
-/
import proofs.«143952_j48747878810305_1_alg».proof.Proof.KernelValue
import proofs.«143952_j48747878810305_1_alg».proof.Proof.RefValue

set_option maxRecDepth 16384

noncomputable section

namespace Cert.Bridge

open Idealize.ShloMosaic Idealize.ShloMosaic.TcCoe Idealize.SL.Sem Cert.Spec
open Cert.ReferenceIdeal.Read Cert.ReferenceIdeal.RefValue

/-- The reference's aggregation is the kernel program's, operation for operation. -/
theorem mid_eq (H : FVec Ideal Cert.ReferenceIdeal.S100000x128 .f32) (E : (⟨Cert.ReferenceIdeal.S2x600000, .i32⟩ : BufTy).Contents (Elt Ideal)) :
    Cert.ReferenceIdeal.RefValue.mid H E = Cert.KernelIdeal.Out.aggK H E := by
  unfold Cert.ReferenceIdeal.RefValue.mid Cert.KernelIdeal.Out.aggK
  unfold val_main_v47 val_main_v46 val_main_v45 val_main_v44 val_main_cst_8 val_main_v43 val_main_v42 val_main_v41 val_main_cst_7 val_main_v40 val_main_cst_6
    val_main_v38 val_main_v37 val_main_cst_5 val_main_v35 val_main_v34 val_main_v33 val_main_v32 val_main_c_4 val_main_v31 val_main_v30 val_main_c
    val_main_v29 val_main_v28 val_main_v27 val_main_v26
  rfl

/-- The reference's transposed weights are the kernel program's. -/
theorem tr49_eq (W : FVec Ideal Cert.ReferenceIdeal.S128x128 .f32) : val_main_v49 (F := Ideal) W = Cert.KernelIdeal.Out.trK W := rfl
theorem tr54_eq (W : FVec Ideal Cert.ReferenceIdeal.S128x128 .f32) : val_main_v54 (F := Ideal) W = Cert.KernelIdeal.Out.trK W := rfl

/-- THE REFERENCE'S RESULT, on arguments that agree with the kernel program's, is the kernel program's result. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v56 m' c = Cert.KernelIdeal.Out.kout m c := by
  obtain ⟨h0, h1, h2, h3, h4, h5, h6, h7⟩ := h
  rw [val_main_v56_eq, out_eq, agg_eq, h_eq, mid_eq, tr49_eq, tr54_eq, h0, h1, h2, h3, h4, h5, h6, h7]
  rfl

end Cert.Bridge

end
-- ==== Proof.lean ====
/-
  The certificate. The layer normalises each row of the features (mean and variance over its 128 entries), rectifies
  and masks it (first kernel), averages the normalised rows over each node's incoming edges (host gather, scatter-add
  and division), and combines the average and the row itself through two transposed weight matrices and a bias (second
  kernel). On the extended reals the kernel program and the reference compute the same array: the row sums, the two
  matrix products and the changes of float format read the same on both sides, the aggregation is the same chain of
  host operations, and the one difference — where the bias is added — is the commutativity of a sum of three terms.
  The frames of the two kernel programs are the generated ones; the reference's frame is its generated run.
-/
import proofs.«143952_j48747878810305_1_alg».proof.Defs
import proofs.«143952_j48747878810305_1_alg».proof.Proof.Gen.Kernel
import proofs.«143952_j48747878810305_1_alg».proof.Proof.Gen.Kernel.Skeleton
import proofs.«143952_j48747878810305_1_alg».proof.Proof.Gen.Kernel.Launch
import proofs.«143952_j48747878810305_1_alg».proof.Proof.Gen.Kernel.Points
import proofs.«143952_j48747878810305_1_alg».proof.Proof.Gen.Kernel.Frame
import proofs.«143952_j48747878810305_1_alg».proof.Proof.Gen.KernelIdeal
import proofs.«143952_j48747878810305_1_alg».proof.Proof.Gen.KernelIdeal.Skeleton
import proofs.«143952_j48747878810305_1_alg».proof.Proof.Gen.KernelIdeal.Launch
import proofs.«143952_j48747878810305_1_alg».proof.Proof.Gen.KernelIdeal.Points
import proofs.«143952_j48747878810305_1_alg».proof.Proof.Gen.KernelIdeal.Frame
import proofs.«143952_j48747878810305_1_alg».proof.Proof.Gen.ReferenceIdeal
import proofs.«143952_j48747878810305_1_alg».proof.Proof.Gen.Pre_finite_inputs
import proofs.«143952_j48747878810305_1_alg».proof.Proof.Gen.ReferenceIdeal.Run
import proofs.«143952_j48747878810305_1_alg».proof.Proof.Gen.ReferenceIdeal.Read
import proofs.«143952_j48747878810305_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs run, and from arguments that agree they end with the same result array. -/
theorem algebraic : Cert.algebraic_KernelIdeal_ReferenceIdeal := by
  intro m ρ m' ρ' _ hagree
  refine ⟨fun c => Cert.KernelIdeal.Out.kout m c, Cert.KernelIdeal.Out.run_value m ρ, ?_⟩
  refine (θ_run Cert.ReferenceIdeal.defs _ _).mono (fun _ h c => ⟨(h c).1.trans ?_, (h c).2⟩)
    (Cert.ReferenceIdeal.Value.run (F := Ideal) m' ρ')
  exact Cert.Bridge.ref_result m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
